-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S6400000 : Shape := ⟨1, ![6400000]⟩
abbrev S6400000x2 : Shape := ⟨2, ![6400000, 2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S6400000 : S_.BroadcastsInDim S6400000 (![] : Fin 0 → Fin S6400000.rank)
  reducesTo_S6400000_S_d0 : S6400000.ReducesTo [0] S_
  bcast_S_S6400000x2 : S_.BroadcastsInDim S6400000x2 (![] : Fin 0 → Fin S6400000x2.rank)
  reducesTo_S6400000x2_S_d0_1 : S6400000x2.ReducesTo [0, 1] S_

variable [Facts]

def fn_part1 {F : FTy → Type} [FloatOps F] (main_arg3 : IVec S6400000x2 32) (main_v13 : IVec S_ 1) (main_v15 : IVec S6400000x2 1) (main_c_5 : IVec S_ 1) : IVec S_ 1 :=
  let main_v16 : IVec S_ 1 := (fun x v => Host.reduce IntOp.andi x v reducesTo_S6400000x2_S_d0_1 h_S_) main_v15 main_c_5
  let main_v17 : IVec S_ 1 := andi main_v13 main_v16
  let main_c_6 : IVec S_ 32 := constantI S_ 32 100000#32
  let main_v18 : IVec S6400000x2 32 := broadcastInDim S6400000x2 ![] bcast_S_S6400000x2 main_c_6
  let main_v19 : IVec S6400000x2 1 := cmpi .slt main_arg3 main_v18
  let main_c_7 : IVec S_ 1 := constantI S_ 1 1#1
  let main_v20 : IVec S_ 1 := (fun x v => Host.reduce IntOp.andi x v reducesTo_S6400000x2_S_d0_1 h_S_) main_v19 main_c_7
  let main_v21 : IVec S_ 1 := andi main_v17 main_v20
  main_v21

def fn {F : FTy → Type} [FloatOps F] (main_arg0 : FVec F S100000x3 .f32) (main_arg1 : FVec F S6400000 .f32) (main_arg2 : FVec F S6400000 .f32) (main_arg3 : IVec S6400000x2 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S6400000 .f32 := Host.absf main_arg1
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S6400000 .f32 := Host.absf main_arg2
  let main_cst_2 : FVec F S_ .f32 := constant S_ .f32 0x7F800000#32
  let main_v10 : FVec F S6400000 .f32 := broadcastInDim S6400000 ![] bcast_S_S6400000 main_cst_2
  let main_v11 : IVec S6400000 1 := cmpf .olt main_v9 main_v10
  let main_c_3 : IVec S_ 1 := constantI S_ 1 1#1
  let main_v12 : IVec S_ 1 := (fun x v => Host.reduce IntOp.andi x v reducesTo_S6400000_S_d0 h_S_) main_v11 main_c_3
  let main_v13 : IVec S_ 1 := andi main_v8 main_v12
  let main_c_4 : IVec S_ 32 := constantI S_ 32 4294867296#32
  let main_v14 : IVec S6400000x2 32 := broadcastInDim S6400000x2 ![] bcast_S_S6400000x2 main_c_4
  let main_v15 : IVec S6400000x2 1 := cmpi .sge main_arg3 main_v14
  let main_c_5 : IVec S_ 1 := constantI S_ 1 1#1
  fn_part1 (F := F) main_arg3 main_v13 main_v15 main_c_5
-- ==== Kernel.lean ====
abbrev S100000x3 : Shape := ⟨2, ![100000, 3]⟩
abbrev S6400000 : Shape := ⟨1, ![6400000]⟩
abbrev S6400000x2 : Shape := ⟨2, ![6400000, 2]⟩
abbrev S6400000x1 : Shape := ⟨2, ![6400000, 1]⟩
abbrev S_ : Shape := ⟨0, ![]⟩
abbrev S1 : Shape := ⟨1, ![1]⟩
abbrev S1x1 : Shape := ⟨2, ![1, 1]⟩
abbrev S6400000x3 : Shape := ⟨2, ![6400000, 3]⟩
abbrev S50000x128 : Shape := ⟨2, ![50000, 128]⟩
abbrev S16x128 : Shape := ⟨2, ![16, 128]⟩
abbrev S5000x128 : Shape := ⟨2, ![5000, 128]⟩
abbrev S8x128 : Shape := ⟨2, ![8, 128]⟩
abbrev S128 : Shape := ⟨1, ![128]⟩
abbrev S1x128 : Shape := ⟨2, ![1, 128]⟩

abbrev nBuf : Space → Nat
  | .hbm => 69
  | .vmem => 9
  | .smem => 0
  | _ => 0

abbrev bufTy : (tb : Table) → Fin (tcTables nBuf tb) → BufTy
  | .hbm, ⟨0, _⟩ => ⟨S100000x3, .f32⟩
  | .hbm, ⟨1, _⟩ => ⟨S6400000, .f32⟩
  | .hbm, ⟨2, _⟩ => ⟨S6400000, .f32⟩
  | .hbm, ⟨3, _⟩ => ⟨S6400000x2, .i32⟩
  | .hbm, ⟨4, _⟩ => ⟨S6400000x1, .i32⟩
  | .hbm, ⟨5, _⟩ => ⟨S6400000, .i32⟩
  | .hbm, ⟨6, _⟩ => ⟨S6400000x1, .i32⟩
  | .hbm, ⟨7, _⟩ => ⟨S6400000, .i32⟩
  | .hbm, ⟨8, _⟩ => ⟨S_, .i32⟩
  | .hbm, ⟨9, _⟩ => ⟨S6400000, .i32⟩
  | .hbm, ⟨10, _⟩ => ⟨S6400000, .i1⟩
  | .hbm, ⟨11, _⟩ => ⟨S_, .i32⟩
  | .hbm, ⟨12, _⟩ => ⟨S6400000, .i32⟩
  | .hbm, ⟨13, _⟩ => ⟨S6400000, .i32⟩
  | .hbm, ⟨14, _⟩ => ⟨S6400000, .i32⟩
  | .hbm, ⟨15, _⟩ => ⟨S6400000x1, .i32⟩
  | .hbm, ⟨16, _⟩ => ⟨S1, .i32⟩
  | .hbm, ⟨17, _⟩ => ⟨S_, .i32⟩
  | .hbm, ⟨18, _⟩ => ⟨S6400000x1, .i32⟩
  | .hbm, ⟨19, _⟩ => ⟨S6400000x1, .i1⟩
  | .hbm, ⟨20, _⟩ => ⟨S1x1, .i32⟩
  | .hbm, ⟨21, _⟩ => ⟨S6400000x1, .i32⟩
  | .hbm, ⟨22, _⟩ => ⟨S6400000x1, .i1⟩
  | .hbm, ⟨23, _⟩ => ⟨S6400000x1, .i1⟩
  | .hbm, ⟨24, _⟩ => ⟨S_, .i1⟩
  | .hbm, ⟨25, _⟩ => ⟨S6400000, .i1⟩
  | .hbm, ⟨26, _⟩ => ⟨S6400000x3, .f32⟩
  | .hbm, ⟨27, _⟩ => ⟨S6400000x3, .i1⟩
  | .hbm, ⟨28, _⟩ => ⟨S_, .f32⟩
  | .hbm, ⟨29, _⟩ => ⟨S6400000x3, .f32⟩
  | .hbm, ⟨30, _⟩ => ⟨S6400000x3, .f32⟩
  | .hbm, ⟨31, _⟩ => ⟨S_, .i32⟩
  | .hbm, ⟨32, _⟩ => ⟨S6400000, .i32⟩
  | .hbm, ⟨33, _⟩ => ⟨S6400000, .i1⟩
  | .hbm, ⟨34, _⟩ => ⟨S_, .i32⟩
  | .hbm, ⟨35, _⟩ => ⟨S6400000, .i32⟩
  | .hbm, ⟨36, _⟩ => ⟨S6400000, .i32⟩
  | .hbm, ⟨37, _⟩ => ⟨S6400000, .i32⟩
  | .hbm, ⟨38, _⟩ => ⟨S6400000x1, .i32⟩
  | .hbm, ⟨39, _⟩ => ⟨S1, .i32⟩
  | .hbm, ⟨40, _⟩ => ⟨S_, .i32⟩
  | .hbm, ⟨41, _⟩ => ⟨S6400000x1, .i32⟩
  | .hbm, ⟨42, _⟩ => ⟨S6400000x1, .i1⟩
  | .hbm, ⟨43, _⟩ => ⟨S1x1, .i32⟩
  | .hbm, ⟨44, _⟩ => ⟨S6400000x1, .i32⟩
  | .hbm, ⟨45, _⟩ => ⟨S6400000x1, .i1⟩
  | .hbm, ⟨46, _⟩ => ⟨S6400000x1, .i1⟩
  | .hbm, ⟨47, _⟩ => ⟨S_, .i1⟩
  | .hbm, ⟨48, _⟩ => ⟨S6400000, .i1⟩
  | .hbm, ⟨49, _⟩ => ⟨S6400000x3, .f32⟩
  | .hbm, ⟨50, _⟩ => ⟨S6400000x3, .i1⟩
  | .hbm, ⟨51, _⟩ => ⟨S_, .f32⟩
  | .hbm, ⟨52, _⟩ => ⟨S6400000x3, .f32⟩
  | .hbm, ⟨53, _⟩ => ⟨S6400000x3, .f32⟩
  | .hbm, ⟨54, _⟩ => ⟨S6400000x3, .f32⟩
  | .hbm, ⟨55, _⟩ => ⟨S6400000x3, .f32⟩
  | .hbm, ⟨56, _⟩ => ⟨S_, .f32⟩
  | .hbm, ⟨57, _⟩ => ⟨S6400000, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S16x128, .f32⟩
  | .hbm, ⟨62, _⟩ => ⟨S1x1, .f32⟩
  | .hbm, ⟨63, _⟩ => ⟨S_, .f32⟩
  | .hbm, ⟨64, _⟩ => ⟨S1x1, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S8x128, .f32⟩
  | .local _ .vmem, ⟨7, _⟩ => ⟨S8x128, .f32⟩
  | .local _ .vmem, ⟨8, _⟩ => ⟨S1x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v4 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_cst : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_cst_0 : Ref sig .tc := ⟨.hbm, 67, rfl⟩
abbrev main_v18 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v24 : BitVec 1 := Scalar.cmpi .eq arg1 c4_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S6400000x2_S6400000x1_0_0 : S6400000x2.Slices ![0, 0] S6400000x1
  shapeCasts_S6400000x1_S6400000 : S6400000x1.ShapeCasts S6400000
  slices_S6400000x2_S6400000x1_0_1 : S6400000x2.Slices ![0, 1] S6400000x1
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  bcast_S6400000_S6400000x3_0 : S6400000.BroadcastsInDim S6400000x3 (![0] : Fin 1 → Fin S6400000x3.rank)
  bcast_S_S6400000x3 : S_.BroadcastsInDim S6400000x3 (![] : Fin 0 → Fin S6400000x3.rank)
  reducesTo_S6400000x3_S6400000_d1 : S6400000x3.ReducesTo [1] S6400000
  shapeCasts_S6400000_S50000x128 : S6400000.ShapeCasts S50000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S128 : S5000x128.Reduces [0] S128
  shapeCasts_S128_S1x128 : S128.ShapeCasts S1x128
  reduces_S1x128_S1 : S1x128.Reduces [1] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  gather_S100000x3_S6400000x1_S6400000x3_1_0_n_n_0_1_13_wf : GatherDims.WF S100000x3 S6400000x1 S6400000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S100000x3 : Shape := ⟨2, ![100000, 3]⟩
abbrev S6400000 : Shape := ⟨1, ![6400000]⟩
abbrev S6400000x2 : Shape := ⟨2, ![6400000, 2]⟩
abbrev S6400000x1 : Shape := ⟨2, ![6400000, 1]⟩
abbrev S_ : Shape := ⟨0, ![]⟩
abbrev S6400000x3 : Shape := ⟨2, ![6400000, 3]⟩

abbrev nBuf : Space → Nat
  | .hbm => 41
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S6400000, .f32⟩
  | .hbm, ⟨2, _⟩ => ⟨S6400000, .f32⟩
  | .hbm, ⟨3, _⟩ => ⟨S6400000x2, .i32⟩
  | .hbm, ⟨4, _⟩ => ⟨S6400000x1, .i32⟩
  | .hbm, ⟨5, _⟩ => ⟨S6400000, .i32⟩
  | .hbm, ⟨6, _⟩ => ⟨S_, .i32⟩
  | .hbm, ⟨7, _⟩ => ⟨S6400000, .i32⟩
  | .hbm, ⟨8, _⟩ => ⟨S6400000, .i1⟩
  | .hbm, ⟨9, _⟩ => ⟨S_, .i32⟩
  | .hbm, ⟨10, _⟩ => ⟨S6400000, .i32⟩
  | .hbm, ⟨11, _⟩ => ⟨S6400000, .i32⟩
  | .hbm, ⟨12, _⟩ => ⟨S6400000, .i32⟩
  | .hbm, ⟨13, _⟩ => ⟨S6400000x1, .i32⟩
  | .hbm, ⟨14, _⟩ => ⟨S6400000x3, .f32⟩
  | .hbm, ⟨15, _⟩ => ⟨S6400000x1, .i32⟩
  | .hbm, ⟨16, _⟩ => ⟨S6400000, .i32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000x3, .f32⟩
  | .hbm, ⟨26, _⟩ => ⟨S6400000x3, .f32⟩
  | .hbm, ⟨27, _⟩ => ⟨S6400000x3, .f32⟩
  | .hbm, ⟨28, _⟩ => ⟨S_, .f32⟩
  | .hbm, ⟨29, _⟩ => ⟨S6400000, .f32⟩
  | .hbm, ⟨30, _⟩ => ⟨S_, .f32⟩
  | .hbm, ⟨31, _⟩ => ⟨S6400000, .f32⟩
  | .hbm, ⟨32, _⟩ => ⟨S6400000, .f32⟩
  | .hbm, ⟨33, _⟩ => ⟨S6400000, .f32⟩
  | .hbm, ⟨34, _⟩ => ⟨S6400000, .f32⟩
  | .hbm, ⟨35, _⟩ => ⟨S6400000, .f32⟩
  | .hbm, ⟨36, _⟩ => ⟨S6400000, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S6400000x2_S6400000x1_0_0 : S6400000x2.Slices ![0, 0] S6400000x1
  shapeCasts_S6400000x1_S6400000 : S6400000x1.ShapeCasts S6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S6400000x2_S6400000x1_0_1 : S6400000x2.Slices ![0, 1] S6400000x1
  reducesTo_S6400000x3_S6400000_d1 : S6400000x3.ReducesTo [1] S6400000
  h_S_ : 0 < S_.numel
  reducesTo_S6400000_S_d0 : S6400000.ReducesTo [0] S_
  gather_S100000x3_S6400000x1_S6400000x3_1_0_n_n_0_1_13_wf : GatherDims.WF S100000x3 S6400000x1 S6400000x3 [1] [0] [] [0] [] 1 ![1, 3]

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf

class Facts : Prop extends Facts₀ where

variable [Facts]
-- ==== Proof.Pieces.lean ====
import proofs.«413945_j7378753815243_2_alg».proof.Proof.Gen.KernelIdeal.Frame
import Idealize.ShloMosaic.Lib.Pipeline.Value
import Idealize.ShloMosaic.Lib.Tactic

/-!
# What one grid point leaves behind

The body keeps a one-element running total in a scratch cell. At the first step of a core's five it stores zero,
reads it back and stores `0 + (this tile's total)`; at the other steps it stores `(what the step before left) + (this
tile's total)`; at the last step it also fills the core's 8 × 128 output block with the total it has just stored.
Each is one whole-cell (or whole-block) store, so what the cell or block holds afterwards is that store's value:
the skeleton's payload `k0_pay2` of the three input blocks and the incoming total (`k0_pay1`, the zero cell, at a
first step), and `k0_pay3` of it for the output block. Stated for any float instance.
-/

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- A middle step: the cell ends at the incoming total plus this tile's. -/
theorem scratch_B (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 x1 x2 : Vec F S5000x128 .f32) (xs0 : Vec F S1x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S5000x128) hz, View.ld_unit_zero (S := S1x1) hz]

/-- A first step: the cell is set to zero, read back, and ends at zero plus this tile's total. -/
theorem scratch_A (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 x1 x2 : Vec F S5000x128 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg6.read_unread,
    View.ld_unit_zero (S := S5000x128) hz, View.ld_unit_zero (S := S1x1) hz]

/-- A last step: the cell as at a middle step. -/
theorem scratch_C (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 x1 x2 : Vec F S5000x128 .f32) (xs0 : Vec F S1x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S5000x128) hz, View.ld_unit_zero (S := S1x1) hz]

/-- A last step: the output block is filled with the total just stored. -/
theorem block_C (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 x1 x2 : Vec F S5000x128 .f32) (xs0 : Vec F S1x1 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S5000x128) hz, View.ld_unit_zero (S := S1x1) hz, View.readCov_unit_zero (S := S1x1) _ hz]

end Cert.KernelIdeal.Pieces

end
-- ==== Proof.Spec.lean ====
import Idealize.ShloMosaic.PureOps.Ideal

/-!
# One spring's energy term

Both programs compute, for every edge `e` with squared length `q`, rest length `l` and stiffness `k`,
`k · (√(q + ε) − l) · (√(q + ε) − l)`, the products taken left to right, with the same f32 word for `ε` (it is never
evaluated). Over the extended reals this is one function of `(q, l, k)`.
-/

noncomputable section

namespace Cert.Springs

open Idealize.ShloMosaic

/-- The softening constant, as the word both programs carry. -/
def eps : EReal := Ideal.ofBits .f32 0x358637BD#32

/-- One edge's term `k · (√(q + ε) − l) · (√(q + ε) − l)`. -/
def edgeTerm (q l k : EReal) : EReal := k * (Ideal.sqrt (q + eps) - l) * (Ideal.sqrt (q + eps) - l)

end Cert.Springs

end
-- ==== Proof.Tile.lean ====
import proofs.«413945_j7378753815243_2_alg».proof.Proof.Gen.KernelIdeal.Skeleton
import proofs.«413945_j7378753815243_2_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The body's arithmetic over the extended reals

On a tile's three 5000 × 128 blocks `q`, `l0`, `k` the body forms the one-edge term element by element, sums each
lane's column of 5000 rows, then sums the 128 column sums, and adds the result to the one-element running total.
Read at the ideal instance: the new total is the old total plus `Σ_lane Σ_row term(q[row, lane], l0[row, lane],
k[row, lane])` (both reductions start from the zero word, which a sum ignores). The reset stores the zero cell; the
output block is the total in every position.
-/

noncomputable section

namespace Cert.KernelIdeal.Tile

open Cert.KernelIdeal Cert.KernelIdeal.Gen Idealize.ShloMosaic Idealize.ShloMosaic.ValueIdx

/-- The reset's cell holds zero. -/
theorem pay1_apply (j : S1x1.Idx) : (k0_pay1 (F := Ideal)) j = 0 := by
  unfold k0_pay1
  simp only [shapeCast_self]
  exact Ideal.ofBits_zero_f32

/-- The block of one-edge terms, element by element. -/
theorem terms_apply (x0 x1 x2 : FVec Ideal S5000x128 .f32) (y : S5000x128.Idx) :
    mulf (mulf x2 (subf (sqrt (addf x0 (broadcast S5000x128 (Scalar.ofBits (F := Ideal) .f32 0x358637BD#32)))) x1))
        (subf (sqrt (addf x0 (broadcast S5000x128 (Scalar.ofBits (F := Ideal) .f32 0x358637BD#32)))) x1) y
      = Cert.Springs.edgeTerm (x0 y) (x1 y) (x2 y) := rfl

/-- The new running total: the old one plus the tile's total, lanes outside, rows inside. -/
theorem pay2_apply (x0 x1 x2 : FVec Ideal S5000x128 .f32) (a : FVec Ideal S1x1 .f32) (j : S1x1.Idx) :
    k0_pay2 (F := Ideal) x0 x1 x2 a j
      = a j + ∑ l : Fin 128, ∑ r : Fin 5000, Cert.Springs.edgeTerm (x0 (ix2 r l)) (x1 (ix2 r l)) (x2 (ix2 r l)) := by
  obtain ⟨p, q, rfl⟩ : ∃ (p q : Fin 1), j = ix2 p q := ⟨j 0, j 1, eq_ix2 j⟩
  unfold k0_pay2
  simp only [shapeCast_self]
  show a (ix2 p q) + shapeCast S1x1 _ _ (ix2 p q) = _
  congr 1
  refine (shapeCast_a_1a_apply _ _ p q).trans ?_
  refine (Ideal.multiReduction_add_single (φ := .f32) _ 0x00000000#32 reduces_S1x128_S1 (.inl rfl) rfl (ix1 q)).trans ?_
  refine Finset.sum_congr rfl fun l _ => ?_
  have e1 : reduces_S1x128_S1.lift (ix1 q) l = ix2 q l :=
    funext fun b => Fin.ext (by match b with | ⟨0, _⟩ => rfl | ⟨1, _⟩ => rfl)
  rw [e1]
  refine (shapeCast_a_1a_apply _ _ q l).trans ?_
  refine (Ideal.multiReduction_add_single (φ := .f32) _ 0x00000000#32 reduces_S5000x128_S128 (.inl rfl) rfl (ix1 l)).trans ?_
  refine Finset.sum_congr rfl fun r _ => ?_
  have e2 : reduces_S5000x128_S128.lift (ix1 l) r = ix2 r l :=
    funext fun b => Fin.ext (by match b with | ⟨0, _⟩ => rfl | ⟨1, _⟩ => rfl)
  rw [e2]
  exact terms_apply x0 x1 x2 (ix2 r l)

/-- The output block holds the total in every position. -/
theorem pay3_apply (v : FVec Ideal S1x1 .f32) (p : Fin 8) (l : Fin 128) :
    k0_pay3 (F := Ideal) v (ix2 p l) = v (ix2 (0 : Fin 1) (0 : Fin 1)) := by
  unfold k0_pay3
  simp only [shapeCast_self]
  exact broadcastTo_apply v broadcasts_S1x1_S8x128 (ix2 p l) (ix2 (0 : Fin 1) (0 : Fin 1)) fun b => by
    match b with
    | ⟨0, _⟩ => rfl
    | ⟨1, _⟩ => rfl

end Cert.KernelIdeal.Tile

end
-- ==== Proof.Words.lean ====
import Idealize.ShloMosaic.Lib.Affine

/-!
# Index words

A vertex index is a 32-bit word read signed. Both programs first wrap a negative index by adding the number of
vertices, 100000 (NumPy's convention: index −1 is the last row). For a word whose signed value lies in
`[−100000, 100000)` the wrapped word lies in `[0, 99999]`: a non-negative index is kept, a negative one
moves up by 100000 without leaving the 32-bit range. So the two range tests `0 ≤ w` and `w ≤ 99999` that the
fill-mode gather makes on the wrapped word both hold.
-/

namespace Cert.Springs

open Idealize.ShloMosaic

/-- The wrapped index: the word itself when it is not negative, the word plus 100000 when it is. -/
def wrapWord (a : BitVec 32) : BitVec 32 :=
  Scalar.select (IntOp.cmpi .slt a 0#32) (IntOp.addi a 100000#32) a

theorem toInt_zero32 : (0#32 : BitVec 32).toInt = 0 := by decide
theorem toInt_100000 : (100000#32 : BitVec 32).toInt = 100000 := by decide
theorem toInt_99999 : (99999#32 : BitVec 32).toInt = 99999 := by decide
theorem toInt_neg100000 : (4294867296#32 : BitVec 32).toInt = -100000 := by decide

/-- A word in `[−100000, 100000)` wraps into `[0, 99999]`. -/
theorem wrapWord_range (a : BitVec 32) (h1 : (-100000 : Int) ≤ a.toInt) (h2 : a.toInt < 100000) :
    0 ≤ (wrapWord a).toInt ∧ (wrapWord a).toInt ≤ 99999 := by
  unfold wrapWord Scalar.select
  by_cases hneg : a.toInt < 0
  · have hc : IntOp.cmpi .slt a 0#32 = 1 := IntOp.cmpi_slt.mpr (by rw [toInt_zero32]; exact hneg)
    rw [if_pos hc]
    have hadd : (IntOp.addi a 100000#32).toInt = a.toInt + 100000 := by
      unfold IntOp.addi
      rw [BitVec.toInt_add, toInt_100000, Int.bmod_def]
      split <;> omega
    rw [hadd]; omega
  · have hc : ¬ IntOp.cmpi .slt a 0#32 = 1 := fun h => hneg (by have := IntOp.cmpi_slt.mp h; rwa [toInt_zero32] at this)
    rw [if_neg hc]; omega

/-- So the fill-mode gather's two range tests hold of the wrapped word. -/
theorem wrapWord_tests (a : BitVec 32) (h1 : (-100000 : Int) ≤ a.toInt) (h2 : a.toInt < 100000) :
    IntOp.andi (IntOp.cmpi .sge (wrapWord a) 0#32) (IntOp.cmpi .sle (wrapWord a) 99999#32) = 1#1 := by
  obtain ⟨h0, h9⟩ := wrapWord_range a h1 h2
  exact IntOp.andi_eq_one.mpr ⟨IntOp.cmpi_sge.mpr (by rw [toInt_zero32]; exact h0),
    IntOp.cmpi_sle.mpr (by rw [toInt_99999]; exact h9)⟩

/-- What the precondition's two comparisons say of a word: its signed value lies in `[−100000, 100000)`. -/
theorem range_of_tests (a : BitVec 32) (hge : IntOp.cmpi .sge a 4294867296#32 = 1#1)
    (hlt : IntOp.cmpi .slt a 100000#32 = 1#1) : (-100000 : Int) ≤ a.toInt ∧ a.toInt < 100000 := by
  have h1 := IntOp.cmpi_sge.mp hge
  have h2 := IntOp.cmpi_slt.mp hlt
  rw [toInt_neg100000] at h1
  rw [toInt_100000] at h2
  exact ⟨h1, h2⟩

end Cert.Springs
-- ==== Proof.HostGlue.lean ====
import proofs.«413945_j7378753815243_2_alg».proof.Proof.Gen.KernelIdeal.Frame
import proofs.«413945_j7378753815243_2_alg».proof.Proof.Words
import Idealize.ShloMosaic.Lib.StableHlo.Run
import Idealize.ShloMosaic.Lib.ReduceAll

/-!
# What the kernel's host code hands the pallas_call

Before the region the kernel's @main computes, in plain array operations, the squared length `q[e]` of every edge:
it takes the two columns of the index pairs, wraps negative indices (`+100000`), gathers the two endpoint rows
of `x` — in jnp.take's default mode, which tests the wrapped index against `[0, 99999]` and puts a fill value in
place of the gathered row where the test fails —, subtracts, squares and sums over the three coordinates; then it
lays `q`, `l0` and `k` out as 50000 rows of 128 lanes. This module names those pieces and reads the operation
list stretch by stretch (each stretch over any starting contents), and shows that when every index lies in
`[−100000, 100000)` the range test is true everywhere, so the fill never shows and the gathered rows are the plain
gather's.
-/

noncomputable section

namespace Cert.KernelIdeal.Glue

open Cert.KernelIdeal Cert.KernelIdeal.Gen Idealize.ShloMosaic Idealize.ShloMosaic.TcCoe Idealize.SL.Sem
open Idealize.ShloMosaic.StableHlo

variable {F : FTy → Type} [FloatOps F]

/-! ## The pieces -/

/-- Column 0 of the index pairs, as a vector over the edges. -/
def col0 (idx : IVec S6400000x2 32) : IVec S6400000 32 :=
  shapeCast S6400000 (extractStridedSlice S6400000x1 ![0, 0] idx slices_S6400000x2_S6400000x1_0_0) shapeCasts_S6400000x1_S6400000
/-- Column 1 of the index pairs. -/
def col1 (idx : IVec S6400000x2 32) : IVec S6400000 32 :=
  shapeCast S6400000 (extractStridedSlice S6400000x1 ![0, 1] idx slices_S6400000x2_S6400000x1_0_1) shapeCasts_S6400000x1_S6400000

/-- A negative index counts from the end: `v + 100000` where `v < 0`, else `v`. -/
def wrap (v : IVec S6400000 32) : IVec S6400000 32 :=
  select (cmpi .slt v (broadcastInDim S6400000 ![] bcast_S_S6400000 (constantI S_ 32 0#32)))
    (addi v (broadcastInDim S6400000 ![] bcast_S_S6400000 (constantI S_ 32 100000#32))) v

/-- The wrapped indices as the gather's column of start indices. -/
def startCol (w : IVec S6400000 32) : IVec S6400000x1 32 :=
  broadcastInDim S6400000x1 ![0] bcast_S6400000_S6400000x1_0 w

/-- The fill mode's range test on a column of start indices, per edge: `0 ≤ w` and `w ≤ 99999`. -/
def inRangeCol (W : IVec S6400000x1 32) : IVec S6400000 1 :=
  Host.reduce IntOp.andi
    (andi (cmpi .sge W (broadcastInDim S6400000x1 ![] bcast_S_S6400000x1 (constantI S_ 32 0#32)))
      (cmpi .sle W (broadcastInDim S6400000x1 ![0, 1] bcast_S1x1_S6400000x1_0_1
        (broadcastInDim S1x1 ![1] bcast_S1_S1x1_1 (constantI S1 32 99999#32)))))
    (constantI S_ 1 1#1) reducesTo_S6400000x1_S6400000_d1 h_S_

/-- The same test of a vector of wrapped indices. -/
def inRange (w : IVec S6400000 32) : IVec S6400000 1 := inRangeCol (startCol w)

/-- The rows of `x` at a column of start indices: the gather itself. -/
def rowsAt (x : FVec F S100000x3 .f32) (W : IVec S6400000x1 32) : FVec F S6400000x3 .f32 :=
  Host.gather gather_S100000x3_S6400000x1_S6400000x3_1_0_n_n_0_1_13 x W

/-- The rows of `x` at the (wrapped) indices. -/
def rowsOf (x : FVec F S100000x3 .f32) (w : IVec S6400000 32) : FVec F S6400000x3 .f32 := rowsAt x (startCol w)

/-- The gathered rows where the test `t` holds, the fill value elsewhere. -/
def fillWhere (t : IVec S6400000 1) (X : FVec F S6400000x3 .f32) : FVec F S6400000x3 .f32 :=
  select (broadcastInDim S6400000x3 ![0] bcast_S6400000_S6400000x3_0 t) X
    (broadcastInDim S6400000x3 ![] bcast_S_S6400000x3 (constant S_ .f32 0x7FC00000#32))

/-- jnp.take in its default mode: the gathered row where the range test holds, the fill value elsewhere. -/
def takeFill (x : FVec F S100000x3 .f32) (v : IVec S6400000 32) : FVec F S6400000x3 .f32 :=
  fillWhere (inRange (wrap v)) (rowsOf x (wrap v))

/-- The squared length of the difference of two rows, per edge. -/
def sqLen (X0 X1 : FVec F S6400000x3 .f32) : FVec F S6400000 .f32 :=
  Host.reduceAdd (mulf (subf X0 X1) (subf X0 X1)) (constant S_ .f32 0x00000000#32) reducesTo_S6400000x3_S6400000_d1 h_S_

/-- A vector over the edges laid out as 50000 rows of 128 lanes. -/
def lanes {α : Type} (v : S6400000.Idx → α) : S50000x128.Idx → α :=
  shapeCast S50000x128 v shapeCasts_S6400000_S50000x128

/-! ## The range test is true when every index is in range -/

theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_ones f l fun n hn => h n (List.mem_cons_of_mem _ hn)

/-- An `and`-reduction from `true` over an array of ones is one. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hinit : init (Shape.Idx.first hu) = 1#1) :
    Host.reduce IntOp.andi x init h hu j = 1#1 := by
  rw [Host.reduce_eq_foldl, hinit]
  exact foldl_andi_ones x _ fun i _ => hx i

/-- The wrap, one edge at a time. -/
theorem wrap_apply (v : IVec S6400000 32) (e : S6400000.Idx) : wrap v e = Cert.Springs.wrapWord (v e) := rfl

/-- With every index in `[−100000, 100000)` the range test holds at every edge. -/
theorem inRange_wrap (v : IVec S6400000 32) (hv : ∀ e, (-100000 : Int) ≤ (v e).toInt ∧ (v e).toInt < 100000) :
    inRange (wrap v) = fun _ => 1#1 := by
  funext e
  unfold inRange inRangeCol
  refine reduce_andi_ones _ _ _ _ e (fun i => ?_) rfl
  show IntOp.andi (IntOp.cmpi .sge (wrap v _) 0#32) (IntOp.cmpi .sle (wrap v _) 99999#32) = 1#1
  rw [wrap_apply]
  exact Cert.Springs.wrapWord_tests _ (hv _).1 (hv _).2

/-- So the fill never shows: jnp.take is the plain gather. -/
theorem takeFill_eq_rowsOf (x : FVec F S100000x3 .f32) (v : IVec S6400000 32)
    (hv : ∀ e, (-100000 : Int) ≤ (v e).toInt ∧ (v e).toInt < 100000) : takeFill x v = rowsOf x (wrap v) := by
  unfold takeFill fillWhere
  rw [inRange_wrap v hv]
  funext i
  show Scalar.select 1#1 _ _ = _
  exact if_pos rfl

/-! ## The operation list, stretch by stretch -/

theorem after_append (l1 l2 : List (HloOp τ sig (Elt F))) (U : Valuation τ sig (Elt F)) :
    after (l1 ++ l2) U = after l2 (after l1 U) := by
  induction l1 generalizing U with
  | nil => rfl
  | cons op l ih => exact ih _

section Stretches
variable (U : Valuation τ sig (Elt F))

theorem s0_v1 : after (hostOps0 (F := F)) U (Proc.devRef .tc main_v1) = col0 (U (Proc.devRef .tc main_arg3)) := by
  after_results; rfl
theorem s0_v3 : after (hostOps0 (F := F)) U (Proc.devRef .tc main_v3) = col1 (U (Proc.devRef .tc main_arg3)) := by
  after_results; rfl
theorem s0_arg0 : after (hostOps0 (F := F)) U (Proc.devRef .tc main_arg0) = U (Proc.devRef .tc main_arg0) := by
  after_results
theorem s0_arg1 : after (hostOps0 (F := F)) U (Proc.devRef .tc main_arg1) = U (Proc.devRef .tc main_arg1) := by
  after_results
theorem s0_arg2 : after (hostOps0 (F := F)) U (Proc.devRef .tc main_arg2) = U (Proc.devRef .tc main_arg2) := by
  after_results

/-! The first `take`, in three segments: the start-index column (8 lines), the range test (10), the gather and
    the select (5). -/

theorem t0_split : (hostOps0_1 (F := F)) = (hostOps0_1 (F := F)).take 8 ++ (((hostOps0_1 (F := F)).drop 8).take 10 ++ (hostOps0_1 (F := F)).drop 18) := rfl

theorem t0a_v5 : after ((hostOps0_1 (F := F)).take 8) U (Proc.devRef .tc main_call0_v5) = startCol (wrap (U (Proc.devRef .tc main_v1))) := by
  rw [show (hostOps0_1 (F := F)).take 8 = [_, _, _, _, _, _, _, _] from rfl]
  after_results
  simp only [TRef.ofBuf, TRef.toBuf, cast_eq]
  rfl
theorem t0a_arg0 : after ((hostOps0_1 (F := F)).take 8) U (Proc.devRef .tc main_arg0) = U (Proc.devRef .tc main_arg0) := by
  rw [show (hostOps0_1 (F := F)).take 8 = [_, _, _, _, _, _, _, _] from rfl]
  after_results
theorem t0b_v12 : after (((hostOps0_1 (F := F)).drop 8).take 10) U (Proc.devRef .tc main_call0_v12) = inRangeCol (U (Proc.devRef .tc main_call0_v5)) := by
  rw [show ((hostOps0_1 (F := F)).drop 8).take 10 = [_, _, _, _, _, _, _, _, _, _] from rfl]
  after_results
  simp only [TRef.ofBuf, TRef.toBuf, cast_eq]
  rfl
theorem t0b_v5 : after (((hostOps0_1 (F := F)).drop 8).take 10) U (Proc.devRef .tc main_call0_v5) = U (Proc.devRef .tc main_call0_v5) := by
  rw [show ((hostOps0_1 (F := F)).drop 8).take 10 = [_, _, _, _, _, _, _, _, _, _] from rfl]
  after_results
theorem t0b_arg0 : after (((hostOps0_1 (F := F)).drop 8).take 10) U (Proc.devRef .tc main_arg0) = U (Proc.devRef .tc main_arg0) := by
  rw [show ((hostOps0_1 (F := F)).drop 8).take 10 = [_, _, _, _, _, _, _, _, _, _] from rfl]
  after_results
theorem t0c_v4 : after ((hostOps0_1 (F := F)).drop 18) U (Proc.devRef .tc main_v4)
    = fillWhere (U (Proc.devRef .tc main_call0_v12)) (rowsAt (U (Proc.devRef .tc main_arg0)) (U (Proc.devRef .tc main_call0_v5))) := by
  rw [show (hostOps0_1 (F := F)).drop 18 = [_, _, _, _, _] from rfl]
  after_results; rfl

theorem s1_v4 : after (hostOps0_1 (F := F)) U (Proc.devRef .tc main_v4)
    = takeFill (U (Proc.devRef .tc main_arg0)) (U (Proc.devRef .tc main_v1)) := by
  rw [t0_split, after_append, after_append, t0c_v4, t0b_v12, t0b_arg0, t0b_v5, t0a_v5, t0a_arg0]
  rfl
set_option maxHeartbeats 1600000 in
theorem s1_v3 : after (hostOps0_1 (F := F)) U (Proc.devRef .tc main_v3) = U (Proc.devRef .tc main_v3) := by
  after_results
set_option maxHeartbeats 1600000 in
theorem s1_arg0 : after (hostOps0_1 (F := F)) U (Proc.devRef .tc main_arg0) = U (Proc.devRef .tc main_arg0) := by
  after_results
set_option maxHeartbeats 1600000 in
theorem s1_arg1 : after (hostOps0_1 (F := F)) U (Proc.devRef .tc main_arg1) = U (Proc.devRef .tc main_arg1) := by
  after_results
set_option maxHeartbeats 1600000 in
theorem s1_arg2 : after (hostOps0_1 (F := F)) U (Proc.devRef .tc main_arg2) = U (Proc.devRef .tc main_arg2) := by
  after_results

/-! The second `take`, likewise. -/

theorem t1_split : (hostOps0_2 (F := F)) = (hostOps0_2 (F := F)).take 8 ++ (((hostOps0_2 (F := F)).drop 8).take 10 ++ (hostOps0_2 (F := F)).drop 18) := rfl

theorem t1a_v5 : after ((hostOps0_2 (F := F)).take 8) U (Proc.devRef .tc main_call1_v5) = startCol (wrap (U (Proc.devRef .tc main_v3))) := by
  rw [show (hostOps0_2 (F := F)).take 8 = [_, _, _, _, _, _, _, _] from rfl]
  after_results
  simp only [TRef.ofBuf, TRef.toBuf, cast_eq]
  rfl
theorem t1a_arg0 : after ((hostOps0_2 (F := F)).take 8) U (Proc.devRef .tc main_arg0) = U (Proc.devRef .tc main_arg0) := by
  rw [show (hostOps0_2 (F := F)).take 8 = [_, _, _, _, _, _, _, _] from rfl]
  after_results
theorem t1b_v12 : after (((hostOps0_2 (F := F)).drop 8).take 10) U (Proc.devRef .tc main_call1_v12) = inRangeCol (U (Proc.devRef .tc main_call1_v5)) := by
  rw [show ((hostOps0_2 (F := F)).drop 8).take 10 = [_, _, _, _, _, _, _, _, _, _] from rfl]
  after_results
  simp only [TRef.ofBuf, TRef.toBuf, cast_eq]
  rfl
theorem t1b_v5 : after (((hostOps0_2 (F := F)).drop 8).take 10) U (Proc.devRef .tc main_call1_v5) = U (Proc.devRef .tc main_call1_v5) := by
  rw [show ((hostOps0_2 (F := F)).drop 8).take 10 = [_, _, _, _, _, _, _, _, _, _] from rfl]
  after_results
theorem t1b_arg0 : after (((hostOps0_2 (F := F)).drop 8).take 10) U (Proc.devRef .tc main_arg0) = U (Proc.devRef .tc main_arg0) := by
  rw [show ((hostOps0_2 (F := F)).drop 8).take 10 = [_, _, _, _, _, _, _, _, _, _] from rfl]
  after_results
theorem t1c_v5 : after ((hostOps0_2 (F := F)).drop 18) U (Proc.devRef .tc main_v5)
    = fillWhere (U (Proc.devRef .tc main_call1_v12)) (rowsAt (U (Proc.devRef .tc main_arg0)) (U (Proc.devRef .tc main_call1_v5))) := by
  rw [show (hostOps0_2 (F := F)).drop 18 = [_, _, _, _, _] from rfl]
  after_results; rfl

theorem s2_v5 : after (hostOps0_2 (F := F)) U (Proc.devRef .tc main_v5)
    = takeFill (U (Proc.devRef .tc main_arg0)) (U (Proc.devRef .tc main_v3)) := by
  rw [t1_split, after_append, after_append, t1c_v5, t1b_v12, t1b_arg0, t1b_v5, t1a_v5, t1a_arg0]
  rfl
set_option maxHeartbeats 1600000 in
theorem s2_v4 : after (hostOps0_2 (F := F)) U (Proc.devRef .tc main_v4) = U (Proc.devRef .tc main_v4) := by
  after_results
set_option maxHeartbeats 1600000 in
theorem s2_arg1 : after (hostOps0_2 (F := F)) U (Proc.devRef .tc main_arg1) = U (Proc.devRef .tc main_arg1) := by
  after_results
set_option maxHeartbeats 1600000 in
theorem s2_arg2 : after (hostOps0_2 (F := F)) U (Proc.devRef .tc main_arg2) = U (Proc.devRef .tc main_arg2) := by
  after_results

theorem s3_v9 : after (hostOps0_3 (F := F)) U (Proc.devRef .tc main_v9)
    = lanes (sqLen (U (Proc.devRef .tc main_v4)) (U (Proc.devRef .tc main_v5))) := by
  after_results; rfl
theorem s3_v10 : after (hostOps0_3 (F := F)) U (Proc.devRef .tc main_v10) = lanes (U (Proc.devRef .tc main_arg1)) := by
  after_results; rfl
theorem s3_v11 : after (hostOps0_3 (F := F)) U (Proc.devRef .tc main_v11) = lanes (U (Proc.devRef .tc main_arg2)) := by
  after_results; rfl

end Stretches

/-! ## What the region finds in its three input arrays -/

variable (m : (ℓ : Loc nD τ sig) → Buf (Elt F) ℓ)

/-- The whole prefix is the four stretches one after the other. -/
theorem V0_eq (c : Dev nD) : V0 m c
    = after hostOps0_3 (after hostOps0_2 (after hostOps0_1 (after hostOps0 (fun b => m (c, b))))) := by
  show after (List.flatten [hostOps0, hostOps0_1, hostOps0_2, hostOps0_3]) _ = _
  simp only [List.flatten_cons, List.flatten_nil, List.append_nil]
  rw [after_append, after_append, after_append]

/-- The squared edge lengths as the kernel's host code computes them from `x` and the index pairs. -/
def qHost (x : FVec F S100000x3 .f32) (idx : IVec S6400000x2 32) : FVec F S6400000 .f32 :=
  sqLen (takeFill x (col0 idx)) (takeFill x (col1 idx))

theorem V_main_v9 (c : Dev nD) : V m c main_v9
    = lanes (qHost (m ((c : Thread nD τ).loc main_arg0)) (m ((c : Thread nD τ).loc main_arg3))) := by
  show V0 m c (Proc.devRef .tc main_v9) = _
  rw [V0_eq, s3_v9, s2_v5, s2_v4, s1_v4, s1_arg0, s1_v3, s0_v1, s0_v3, s0_arg0]
  rfl

theorem V_main_v10 (c : Dev nD) : V m c main_v10 = lanes (m ((c : Thread nD τ).loc main_arg1)) := by
  show V0 m c (Proc.devRef .tc main_v10) = _
  rw [V0_eq, s3_v10, s2_arg1, s1_arg1, s0_arg1]

theorem V_main_v11 (c : Dev nD) : V m c main_v11 = lanes (m ((c : Thread nD τ).loc main_arg2)) := by
  show V0 m c (Proc.devRef .tc main_v11) = _
  rw [V0_eq, s3_v11, s2_arg2, s1_arg2, s0_arg2]

end Cert.KernelIdeal.Glue

end
-- ==== Proof.SumRegroup.lean ====
import Mathlib.Algebra.BigOperators.Group.Finset.Basic
import Mathlib.Algebra.BigOperators.Fin
import Mathlib.Tactic.NormNum

/-!
# Regrouping a long sum

The reference adds the 6 400 000 edge terms in one sum. The kernel lays the edges out row-major as 50 000 rows of
128 lanes, cuts the rows into ten tiles of 5 000 rows, gives tiles 0–4 to the first core and tiles 5–9 to the
second, and on each core adds, tile after tile, the tile's total — the lanes' column sums added up. Addition in a
commutative monoid does not care: a sum over `a · b` consecutive positions is the sum over `a` groups of the sum
over the `b` positions of the group, a double sum may be taken in either order, and ten tiles are five and five.
Nothing here needs the terms to be finite.
-/

namespace Cert.Springs

open Finset

variable {M : Type} [AddCommMonoid M]

/-- `a · b` consecutive positions are `a` groups of `b`. -/
theorem sum_range_mul (a b : ℕ) (f : ℕ → M) :
    ∑ e ∈ range (a * b), f e = ∑ x ∈ range a, ∑ y ∈ range b, f (x * b + y) := by
  induction a with
  | zero => simp
  | succ a ih => rw [Nat.succ_mul, sum_range_add, ih, sum_range_succ]

/-- The total of tile `u`: over its 128 lanes, the column sum of its 5 000 rows. Position `(u·5000 + r)·128 + l`
    is row `u·5000 + r`, lane `l` of the row-major layout. -/
def tileSum (f : ℕ → M) (u : ℕ) : M :=
  ∑ l ∈ range 128, ∑ r ∈ range 5000, f ((u * 5000 + r) * 128 + l)

/-- All the edges are the ten tiles. -/
theorem sum_edges_eq_tiles (f : ℕ → M) :
    ∑ e ∈ range 6400000, f e = ∑ u ∈ range 10, tileSum f u := by
  rw [show (6400000 : ℕ) = 50000 * 128 from by norm_num, sum_range_mul,
    show (50000 : ℕ) = 10 * 5000 from by norm_num, sum_range_mul]
  refine sum_congr rfl fun u _ => ?_
  unfold tileSum
  rw [sum_comm]

/-- Ten tiles are the first core's five and the second core's five. -/
theorem sum_tiles_two_cores (g : ℕ → M) :
    ∑ u ∈ range 10, g u = (∑ s ∈ range 5, g (0 + s)) + ∑ s ∈ range 5, g (5 + s) := by
  rw [show (10 : ℕ) = 5 + 5 from rfl, sum_range_add]
  simp only [Nat.zero_add]

end Cert.Springs
-- ==== Proof.Totals.lean ====
import proofs.«413945_j7378753815243_2_alg».proof.Proof.Pieces
import proofs.«413945_j7378753815243_2_alg».proof.Proof.Tile
import proofs.«413945_j7378753815243_2_alg».proof.Proof.HostGlue
import proofs.«413945_j7378753815243_2_alg».proof.Proof.SumRegroup

/-!
# The running total, point by point

Grid point `t` (core `t / 5`, step `t % 5`) sees rows `5000·t … 5000·t + 4999` of the three 50000 × 128 arrays, so
its block element `(r, l)` is flat edge `(5000·t + r)·128 + l`, and its tile's total is `tileSum` of the flat
one-edge terms at `t`. By induction over the points the scratch cell holds, after point `n`, the sum of the tile
totals of the points `n − n % 5 … n`: a first step starts again from zero, every other step adds its tile to what
the step before left.
-/

noncomputable section

namespace Cert.KernelIdeal.Totals

open Cert.KernelIdeal Cert.KernelIdeal.Gen Idealize.ShloMosaic Idealize.ShloMosaic.TcCoe Idealize.SL.Sem
open Idealize.ShloMosaic.ValueIdx Finset

variable (m : (ℓ : Loc nD τ sig) → Buf (Elt Ideal) ℓ)

/-- The squared lengths, rest lengths and stiffnesses as flat arrays over the edges. -/
abbrev qArr (c : Dev nD) : FVec Ideal S6400000 .f32 :=
  Glue.qHost (m ((c : Thread nD τ).loc main_arg0)) (m ((c : Thread nD τ).loc main_arg3))
abbrev lArr (c : Dev nD) : FVec Ideal S6400000 .f32 := m ((c : Thread nD τ).loc main_arg1)
abbrev kArr (c : Dev nD) : FVec Ideal S6400000 .f32 := m ((c : Thread nD τ).loc main_arg2)

/-- The one-edge term at flat position `e` (zero past the last edge, where nothing looks). -/
def edgeN (c : Dev nD) (e : ℕ) : EReal :=
  if h : e < 6400000 then
    Cert.Springs.edgeTerm (qArr m c (ix1 ⟨e, h⟩)) (lArr m c (ix1 ⟨e, h⟩)) (kArr m c (ix1 ⟨e, h⟩))
  else 0

/-- The blocks' row index at point `t` is `t` (five steps per core: `5·(t / 5) + t % 5`), the lane index `0`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

/-- A position of the row-major 50000 × 128 layout is a flat position. -/
theorem lanes_apply {α : Type} (v : S6400000.Idx → α) (y : S50000x128.Idx) (e : Fin 6400000)
    (he : e.val = (y 0).val * 128 + (y 1).val) : Glue.lanes v y = v (ix1 e) := by
  unfold Glue.lanes
  refine shapeCast_apply _ _ _ _ ?_
  rw [Shape.rowMajor_val_one, Shape.rowMajor_val_two]
  exact he

/-- Block `t` of a row-major 50000 × 128 array of edge values, read at row `r`, lane `l`: the value of flat edge
    `(5000·t + r)·128 + l`. Stated for any edge values, window by window. -/
theorem blk0_read (v : FVec Ideal S6400000 .f32) (t : Fin cfg0.N) (r : Fin 5000) (l : Fin 128)
    (h : (t.val * 5000 + r.val) * 128 + l.val < 6400000) :
    ((cfg0.win 0).blk t).view.read (Elt Ideal) (Glue.lanes v) (ix2 r l) = v (ix1 ⟨(t.val * 5000 + r.val) * 128 + l.val, h⟩) := by
  rw [View.read_apply]
  show Glue.lanes v _ = _
  refine lanes_apply _ _ _ ?_
  show (t.val * 5000 + r.val) * 128 + l.val = (win0_0.index t 0 * 5000 + 1 * r.val) * 128 + (win0_0.index t 1 * 128 + 1 * l.val)
  rw [(idx_facts t).1.1, (idx_facts t).1.2]
  omega

theorem blk1_read (v : FVec Ideal S6400000 .f32) (t : Fin cfg0.N) (r : Fin 5000) (l : Fin 128)
    (h : (t.val * 5000 + r.val) * 128 + l.val < 6400000) :
    ((cfg0.win 1).blk t).view.read (Elt Ideal) (Glue.lanes v) (ix2 r l) = v (ix1 ⟨(t.val * 5000 + r.val) * 128 + l.val, h⟩) := by
  rw [View.read_apply]
  show Glue.lanes v _ = _
  refine lanes_apply _ _ _ ?_
  show (t.val * 5000 + r.val) * 128 + l.val = (win0_1.index t 0 * 5000 + 1 * r.val) * 128 + (win0_1.index t 1 * 128 + 1 * l.val)
  rw [(idx_facts t).2.1.1, (idx_facts t).2.1.2]
  omega

theorem blk2_read (v : FVec Ideal S6400000 .f32) (t : Fin cfg0.N) (r : Fin 5000) (l : Fin 128)
    (h : (t.val * 5000 + r.val) * 128 + l.val < 6400000) :
    ((cfg0.win 2).blk t).view.read (Elt Ideal) (Glue.lanes v) (ix2 r l) = v (ix1 ⟨(t.val * 5000 + r.val) * 128 + l.val, h⟩) := by
  rw [View.read_apply]
  show Glue.lanes v _ = _
  refine lanes_apply _ _ _ ?_
  show (t.val * 5000 + r.val) * 128 + l.val = (win0_2.index t 0 * 5000 + 1 * r.val) * 128 + (win0_2.index t 1 * 128 + 1 * l.val)
  rw [(idx_facts t).2.2.1, (idx_facts t).2.2.2]
  omega

/-- What the region finds in its three input arrays, by window number. -/
theorem arr0_eq (c : Dev nD) : V m c (Pipeline.arrRef spec0 (0 : Fin cfg0.W)) = Glue.lanes (qArr m c) := Glue.V_main_v9 m c
theorem arr1_eq (c : Dev nD) : V m c (Pipeline.arrRef spec0 (1 : Fin cfg0.W)) = Glue.lanes (lArr m c) := Glue.V_main_v10 m c
theorem arr2_eq (c : Dev nD) : V m c (Pipeline.arrRef spec0 (2 : Fin cfg0.W)) = Glue.lanes (kArr m c) := Glue.V_main_v11 m c

theorem qblk_apply (c : Dev nD) (t : Fin cfg0.N) (r : Fin 5000) (l : Fin 128)
    (h : (t.val * 5000 + r.val) * 128 + l.val < 6400000) :
    (iblk m c 0 t : FVec Ideal S5000x128 .f32) (ix2 r l) = qArr m c (ix1 ⟨(t.val * 5000 + r.val) * 128 + l.val, h⟩) := by
  unfold iblk
  rw [arr0_eq m c]
  exact blk0_read (qArr m c) t r l h

theorem lblk_apply (c : Dev nD) (t : Fin cfg0.N) (r : Fin 5000) (l : Fin 128)
    (h : (t.val * 5000 + r.val) * 128 + l.val < 6400000) :
    (iblk m c 1 t : FVec Ideal S5000x128 .f32) (ix2 r l) = lArr m c (ix1 ⟨(t.val * 5000 + r.val) * 128 + l.val, h⟩) := by
  unfold iblk
  rw [arr1_eq m c]
  exact blk1_read (lArr m c) t r l h

theorem kblk_apply (c : Dev nD) (t : Fin cfg0.N) (r : Fin 5000) (l : Fin 128)
    (h : (t.val * 5000 + r.val) * 128 + l.val < 6400000) :
    (iblk m c 2 t : FVec Ideal S5000x128 .f32) (ix2 r l) = kArr m c (ix1 ⟨(t.val * 5000 + r.val) * 128 + l.val, h⟩) := by
  unfold iblk
  rw [arr2_eq m c]
  exact blk2_read (kArr m c) t r l h

/-- The tile's total at point `t`, lanes outside and rows inside, is `tileSum` of the flat terms at `t`. -/
theorem tile_eq (c : Dev nD) (t : Fin cfg0.N) :
    (∑ l : Fin 128, ∑ r : Fin 5000, Cert.Springs.edgeTerm ((iblk m c 0 t : FVec Ideal S5000x128 .f32) (ix2 r l))
        ((iblk m c 1 t : FVec Ideal S5000x128 .f32) (ix2 r l)) ((iblk m c 2 t : FVec Ideal S5000x128 .f32) (ix2 r l)))
      = Cert.Springs.tileSum (edgeN m c) t.val := by
  have hN : t.val < 10 := lt_of_lt_of_eq t.isLt (show cfg0.N = 10 from N_0)
  unfold Cert.Springs.tileSum
  rw [Finset.sum_range]
  refine Finset.sum_congr rfl fun l _ => ?_
  rw [Finset.sum_range]
  refine Finset.sum_congr rfl fun r _ => ?_
  have h : (t.val * 5000 + r.val) * 128 + l.val < 6400000 := by have := r.isLt; have := l.isLt; omega
  unfold edgeN
  rw [dif_pos h, qblk_apply m c t r l h, lblk_apply m c t r l h, kblk_apply m c t r l h]

/-- The scratch cell after point `n`: the tile totals of the core's steps so far. -/
theorem total_eq (c : Dev nD) : ∀ (n : ℕ) (hn : n < cfg0.N),
    (outsAt0 (F := Ideal) m c n hn).2 (ix2 (0 : Fin 1) (0 : Fin 1))
      = ∑ s ∈ range (n % 5 + 1), Cert.Springs.tileSum (edgeN m c) (n - n % 5 + s) := by
  intro n
  induction n with
  | zero =>
    intro hn
    have hA := outsAt0_A (F := Ideal) m c ⟨0, hn⟩ rfl (by show ¬ (0 : ℕ) % 5 = 4; decide)
    rw [show outsAt0 (F := Ideal) m c 0 hn = outsAt0 (F := Ideal) m c (⟨0, hn⟩ : Fin cfg0.N).val (⟨0, hn⟩ : Fin cfg0.N).isLt from rfl, hA]
    dsimp only
    refine (congrFun (Pieces.scratch_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) _ _ (iblk m c 0 ⟨0, hn⟩) (iblk m c 1 ⟨0, hn⟩) (iblk m c 2 ⟨0, hn⟩)) (ix2 (0 : Fin 1) (0 : Fin 1))).trans ?_
    refine (Tile.pay2_apply (iblk m c 0 ⟨0, hn⟩) (iblk m c 1 ⟨0, hn⟩) (iblk m c 2 ⟨0, hn⟩) (k0_pay1 (F := Ideal)) (ix2 (0 : Fin 1) (0 : Fin 1))).trans ?_
    rw [Tile.pay1_apply, zero_add, tile_eq m c ⟨0, hn⟩]
    simp
  | succ n ih =>
    intro hn
    have hN : n + 1 < 10 := lt_of_lt_of_eq hn (show cfg0.N = 10 from N_0)
    have hprev := ih (Nat.lt_of_succ_lt hn)
    rw [show outsAt0 (F := Ideal) m c (n + 1) hn = outsAt0 (F := Ideal) m c (⟨n + 1, hn⟩ : Fin cfg0.N).val (⟨n + 1, hn⟩ : Fin cfg0.N).isLt from rfl]
    by_cases h0 : (n + 1) % 5 = 0
    · have h1 : ¬ (n + 1) % 5 = 4 := by omega
      rw [outsAt0_A (F := Ideal) m c ⟨n + 1, hn⟩ h0 h1]
      dsimp only
      refine (congrFun (Pieces.scratch_A (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (iblk m c 0 ⟨n + 1, hn⟩) (iblk m c 1 ⟨n + 1, hn⟩) (iblk m c 2 ⟨n + 1, hn⟩)) (ix2 (0 : Fin 1) (0 : Fin 1))).trans ?_
      refine (Tile.pay2_apply (iblk m c 0 ⟨n + 1, hn⟩) (iblk m c 1 ⟨n + 1, hn⟩) (iblk m c 2 ⟨n + 1, hn⟩) (k0_pay1 (F := Ideal)) (ix2 (0 : Fin 1) (0 : Fin 1))).trans ?_
      rw [Tile.pay1_apply, zero_add, tile_eq m c ⟨n + 1, hn⟩, h0]
      simp
    · have hk : (n + 1) % 5 = n % 5 + 1 := by omega
      have hb : n + 1 - (n % 5 + 1) = n - n % 5 := by omega
      have hlast : n - n % 5 + (n % 5 + 1) = n + 1 := by omega
      by_cases h1 : (n + 1) % 5 = 4
      · rw [outsAt0_C (F := Ideal) m c ⟨n + 1, hn⟩ h0 h1]
        dsimp only
        refine (congrFun (Pieces.scratch_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (iblk m c 0 ⟨n + 1, hn⟩) (iblk m c 1 ⟨n + 1, hn⟩) (iblk m c 2 ⟨n + 1, hn⟩) _) (ix2 (0 : Fin 1) (0 : Fin 1))).trans ?_
        refine (Tile.pay2_apply (iblk m c 0 ⟨n + 1, hn⟩) (iblk m c 1 ⟨n + 1, hn⟩) (iblk m c 2 ⟨n + 1, hn⟩) _ (ix2 (0 : Fin 1) (0 : Fin 1))).trans ?_
        rw [tile_eq m c ⟨n + 1, hn⟩, hk, hb, Finset.sum_range_succ, hlast]
        exact congrArg (· + _) hprev
      · rw [outsAt0_B (F := Ideal) m c ⟨n + 1, hn⟩ h0 h1]
        dsimp only
        refine (congrFun (Pieces.scratch_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (iblk m c 0 ⟨n + 1, hn⟩) (iblk m c 1 ⟨n + 1, hn⟩) (iblk m c 2 ⟨n + 1, hn⟩) _) (ix2 (0 : Fin 1) (0 : Fin 1))).trans ?_
        refine (Tile.pay2_apply (iblk m c 0 ⟨n + 1, hn⟩) (iblk m c 1 ⟨n + 1, hn⟩) (iblk m c 2 ⟨n + 1, hn⟩) _ (ix2 (0 : Fin 1) (0 : Fin 1))).trans ?_
        rw [tile_eq m c ⟨n + 1, hn⟩, hk, hb, Finset.sum_range_succ, hlast]
        exact congrArg (· + _) hprev

/-- A core's total: the five tile totals of its steps. -/
def coreTotal (c : Dev nD) (k : ℕ) : EReal := ∑ s ∈ range 5, Cert.Springs.tileSum (edgeN m c) (5 * k + s)

/-- After a core's last step (point `5·k + 4`) the cell holds the core's total. -/
theorem total_last (c : Dev nD) (k : ℕ) (hn : 5 * k + 4 < cfg0.N) :
    (outsAt0 (F := Ideal) m c (5 * k + 4) hn).2 (ix2 (0 : Fin 1) (0 : Fin 1)) = coreTotal m c k := by
  rw [total_eq m c _ hn, show (5 * k + 4) % 5 + 1 = 5 from by omega, show 5 * k + 4 - (5 * k + 4) % 5 = 5 * k from by omega]
  rfl

end Cert.KernelIdeal.Totals

end
-- ==== Proof.OutArray.lean ====
import proofs.«413945_j7378753815243_2_alg».proof.Proof.Totals

/-!
# The pallas_call's result array

The 16 × 128 result has one 8 × 128 block per core. Block `c` is written back once, after the core's last step
(point `5·c + 4`), when the body has just filled it with the core's total. The two blocks tile the array, so after
the region every element of row `R` holds core `R / 8`'s total.
-/

noncomputable section

namespace Cert.KernelIdeal.OutArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The result array: row `R` holds core `R / 8`'s total in every lane. -/
def outG (c : Dev nD) : FVec Ideal S16x128 .f32 := fun i => Totals.coreTotal m c ((i 0).val / 8)

/-- At a core's last step the output block holds, everywhere, what the scratch cell holds. -/
theorem block_last (c : Dev nD) (t : Fin cfg0.N) (h0 : ¬ t.val % 5 = 0) (h4 : t.val % 5 = 4) (j : S8x128.Idx) :
    (outsAt0 (F := Ideal) m c t.val t.isLt).1 j
      = (outsAt0 (F := Ideal) m c t.val t.isLt).2 (ix2 (0 : Fin 1) (0 : Fin 1)) := by
  obtain ⟨p, l, rfl⟩ : ∃ (p : Fin 8) (l : Fin 128), j = ix2 p l := ⟨j 0, j 1, eq_ix2 j⟩
  rw [outsAt0_C (F := Ideal) m c t h0 h4]
  dsimp only
  refine (congrFun (Pieces.block_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _) (ix2 p l)).trans ?_
  refine (Tile.pay3_apply _ p l).trans ?_
  exact (congrFun (Pieces.scratch_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _) (ix2 (0 : Fin 1) (0 : Fin 1))).symm

/-- Where the output window's blocks sit: block row `t / 5`, eight rows and all 128 lanes of it. -/
theorem out_facts : ∀ t : Fin cfg0.N,
    win0_3.index t (0 : Fin 2) = t.val / 5 ∧ win0_3.index t (1 : Fin 2) = 0
    ∧ win0_3.xsize (grid0.coords t) (0 : Fin 2) = 8 ∧ win0_3.xsize (grid0.coords t) (1 : Fin 2) = 128 :=
  (by decide +kernel : ∀ t : Fin grid0.N, _)

/-- What a flushing point writes back is its block of `outG`. -/
theorem flushed_eq (c : Dev nD) (t : Fin cfg0.N) (hf : (cfg0.win 3).flush t = true) :
    (dats (F := Ideal) m 0 c).flushed 3 t = ((cfg0.win 3).blk t).view.read (Elt Ideal) (outG m c) := by
  have h4 : t.val % 5 = 4 := (flush0_3 t).mp hf
  have h0 : ¬ t.val % 5 = 0 := by omega
  have hN : t.val < 10 := lt_of_lt_of_eq t.isLt (show cfg0.N = 10 from N_0)
  show (cfg0.win 3).cut (grid0.coords t) ((dats (F := Ideal) m 0 c).after 3 t) = _
  rw [after0_3]
  funext y
  rw [View.read_apply]
  show (outsAt0 (F := Ideal) m c t.val t.isLt).1 _ = outG m c _
  rw [block_last m c t h0 h4]
  have hk : t.val = 5 * (t.val / 5) + 4 := by omega
  have hlast := Totals.total_last m c (t.val / 5) (by rw [← hk]; exact t.isLt)
  rw [show (outsAt0 (F := Ideal) m c t.val t.isLt) = outsAt0 (F := Ideal) m c (5 * (t.val / 5) + 4) (by rw [← hk]; exact t.isLt) from by
    congr 1 <;> first | exact hk | skip]
  rw [hlast]
  unfold outG
  congr 1
  show t.val / 5 = (win0_3.index t 0 * 8 + 1 * (y 0).val) / 8
  have hy : (y 0).val < win0_3.xsize (grid0.coords t) 0 := (y 0).isLt
  rw [(out_facts t).2.2.1] at hy
  rw [(out_facts t).1]
  omega

/-- The two write-backs cover the array: the region leaves it at `outG`. -/
theorem final_out (c : Dev nD) : (dats (F := Ideal) m 0 c).arrAt 3 cfg0.N = outG m c :=
  (dats (F := Ideal) m 0 c).arrAt_eq_of_cover 3 (outG m c) (flushed_eq m c) fun i => by
    have hi0 : (i 0 : Nat) < 16 := (i 0).isLt
    have hi1 : (i 1 : Nat) < 128 := (i 1).isLt
    have hN : cfg0.N = 10 := N_0
    obtain ⟨t, ht⟩ : ∃ t : Fin cfg0.N, t.val = 5 * ((i 0 : Nat) / 8) + 4 := ⟨⟨5 * ((i 0 : Nat) / 8) + 4, by rw [hN]; omega⟩, rfl⟩
    refine ⟨t, (flush0_3 t).mpr (by omega), ?_⟩
    show i ∈ ((View.whole main_v12).slice (win0_3.rect t)).set
    rw [View.set_slice_whole, Rect.mem_set_unit]
    intro a
    match a with
    | ⟨0, _⟩ =>
      show win0_3.index t 0 * win0_3.size 0 ≤ (i 0 : Nat) ∧ (i 0 : Nat) < win0_3.index t 0 * win0_3.size 0 + win0_3.xsize (grid0.coords t) 0
      rw [(out_facts t).1, (out_facts t).2.2.1, ht]
      show (5 * ((i 0 : Nat) / 8) + 4) / 5 * 8 ≤ (i 0 : Nat) ∧ (i 0 : Nat) < (5 * ((i 0 : Nat) / 8) + 4) / 5 * 8 + 8
      omega
    | ⟨1, _⟩ =>
      show win0_3.index t 1 * win0_3.size 1 ≤ (i 1 : Nat) ∧ (i 1 : Nat) < win0_3.index t 1 * win0_3.size 1 + win0_3.xsize (grid0.coords t) 1
      rw [(out_facts t).2.1, (out_facts t).2.2.2]
      omega

end Cert.KernelIdeal.OutArray

end
-- ==== Proof.Result.lean ====
import proofs.«413945_j7378753815243_2_alg».proof.Proof.OutArray
import Idealize.ShloMosaic.Lib.StableHlo.Run

/-!
# The kernel's result

After the region @main takes element (0, 0) and element (8, 0) of the result array — the two cores' totals —, adds
them and multiplies by ½. So at the ideal instance the kernel's scalar result is `½ · (total₀ + total₁)`.
-/

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo

/-- A 1 × 1 slice at row `r`, lane 0 of a 16 × 128 array, reshaped to a scalar, is that element. -/
theorem corner {α : Type} (G : S16x128.Idx → α) (r : ℕ) (hr : r < 16) (h1 : S16x128.Slices ![r, 0] S1x1)
    (h2 : S1x1.ShapeCasts S_) (i : S_.Idx) :
    shapeCast S_ (extractStridedSlice S1x1 ![r, 0] G h1) h2 i = G (ix2 (⟨r, hr⟩ : Fin 16) (0 : Fin 128)) := by
  refine (shapeCast_apply _ h2 i (ix2 (0 : Fin 1) (0 : Fin 1)) ?_).trans ?_
  · rw [Shape.rowMajor_val_two]
    have hn : S_.numel = 1 := by decide
    have hlt : (S_.rowMajor i).val < 1 := lt_of_lt_of_eq (S_.rowMajor i).isLt hn
    show 0 * 1 + 0 = _
    omega
  · refine extractStridedSlice_apply _ G h1 _ _ fun a => ?_
    match a with
    | ⟨0, _⟩ => rfl
    | ⟨1, _⟩ => rfl

variable (m : (ℓ : Loc nD τ sig) → Buf (Elt Ideal) ℓ) (ρ : Dev nD → PrngReg)

/-- The scalar the kernel returns: half the sum of the two cores' totals. -/
def value (c : Dev nD) : EReal :=
  Ideal.ofBits .f32 0x3F000000#32 * (Totals.coreTotal m c 0 + Totals.coreTotal m c 1)

/-- The lines after the region, read: `½ · (out[0, 0] + out[8, 0])` of the array the region left. -/
theorem tail_eq (c : Dev nD) :
    Pipeline.afterTail₀ cfgs (dats (F := Ideal) m) 0 (V0 m) [hostOps1] c main_v18 = fun _ => value m c := by
  unfold Pipeline.afterTail₀
  show after hostOps1 _ (Proc.devRef .tc main_v18) = _
  after_results
  rw [show Pipeline.withArrays (cfgs 0).spec c (V0 m c) (fun w => (dats (F := Ideal) m 0 c).arrAt w (cfgs 0).N) (Proc.devRef .tc main_v12)
      = OutArray.outG m c from (Pipeline.withArrays_arr spec0 launch0.win.arr_inj c _ _ 3).trans (OutArray.final_out m c)]
  funext i
  show Ideal.ofBits .f32 0x3F000000#32 * (shapeCast S_ (extractStridedSlice S1x1 ![0, 0] (OutArray.outG m c) _) _ i
      + shapeCast S_ (extractStridedSlice S1x1 ![8, 0] (OutArray.outG m c) _) _ i) = _
  rw [corner (OutArray.outG m c) 0 (by decide), corner (OutArray.outG m c) 8 (by decide)]
  rfl

/-- The kernel's run at the ideal instance: its result is `value`, its arguments end as they began. -/
theorem run : θ_run defs (onTc (τ := τ) (main (F := Ideal))) ⟨m, fun _ => 0, ρ⟩ fun r => ∀ c : Dev nD,
      r.2.mem ((c.tc : Thread nD τ).loc main_v18) = (fun _ => value m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefValue.lean ====
import proofs.«413945_j7378753815243_2_alg».proof.Proof.Gen.ReferenceIdeal.Read
import proofs.«413945_j7378753815243_2_alg».proof.Proof.Spec
import Idealize.ShloMosaic.Lib.ValueIdx
import Idealize.ShloMosaic.PureOps.Ideal.Laws

/-!
# The reference's value

At the ideal instance the reference's result is `½ · (0 + Σₑ term(q[e], l0[e], k[e]))`, the sum over all 6 400 000
edges in one go, where `q` is its own squared-length array (the generated stage `val_main_v20`) and `term` the
one-edge formula: every operation after `q` acts edge by edge, and the last two are the sum and the factor ½.
-/

noncomputable section

namespace Cert.ReferenceIdeal.RefValue

open Cert.ReferenceIdeal Cert.ReferenceIdeal.Gen Cert.ReferenceIdeal.Read Idealize.ShloMosaic Idealize.ShloMosaic.TcCoe

/-- After `q` the reference works edge by edge: its last array before the sum holds the one-edge term. -/
theorem edge_apply (x0 : (⟨S100000x3, .f32⟩ : BufTy).Contents (Elt Ideal)) (x1 x2 : (⟨S6400000, .f32⟩ : BufTy).Contents (Elt Ideal))
    (x3 : (⟨S6400000x2, .i32⟩ : BufTy).Contents (Elt Ideal)) (j : S6400000.Idx) :
    val_main_v26 (F := Ideal) x0 x1 x2 x3 j
      = Cert.Springs.edgeTerm (val_main_v20 (F := Ideal) x0 x3 j) (x1 j) (x2 j) := by
  rw [val_main_v26_apply, val_main_v25_apply, val_main_v24_apply, val_main_v23_apply, val_main_v22_apply,
    val_main_v21_apply, val_main_cst_3_apply]
  simp only [Cert.Springs.edgeTerm, Cert.Springs.eps, Ideal.mulf_def, Ideal.subf_def, Ideal.addf_def,
    Ideal.hostUnary_sqrt_def, Ideal.ofBits_def]

/-- The reference's result: half of zero plus the sum of the edge terms. -/
theorem result_apply (x0 : (⟨S100000x3, .f32⟩ : BufTy).Contents (Elt Ideal)) (x1 x2 : (⟨S6400000, .f32⟩ : BufTy).Contents (Elt Ideal))
    (x3 : (⟨S6400000x2, .i32⟩ : BufTy).Contents (Elt Ideal)) (i : S_.Idx) :
    val_main_v28 (F := Ideal) x0 x1 x2 x3 i
      = Ideal.ofBits .f32 0x3F000000#32 * (Ideal.ofBits .f32 0x00000000#32
          + ∑ j : S6400000.Idx, Cert.Springs.edgeTerm (val_main_v20 (F := Ideal) x0 x3 j) (x1 j) (x2 j)) := by
  rw [val_main_v28_apply, val_main_v27_apply, val_main_cst_5_apply, val_main_cst_4_apply]
  simp only [edge_apply, Ideal.mulf_def, Ideal.ofBits_def]

end Cert.ReferenceIdeal.RefValue

end
-- ==== Proof.Bridge.lean ====
import proofs.«413945_j7378753815243_2_alg».proof.Proof.Result
import proofs.«413945_j7378753815243_2_alg».proof.Proof.RefValue
import Idealize.ShloMosaic.Lib.ValueIdxRank1

/-!
# The two sides meet

With every vertex index in `[−100000, 100000)` the kernel's squared-length array is the reference's: both wrap the
index the same way and gather the same row; the kernel's fill never shows. Then the reference's one sum over the
6 400 000 edges is the sum of the ten tile totals, which is the first core's five plus the second core's five —
addition of extended reals is commutative and associative, so no term need be finite for this.
-/

noncomputable section

namespace Cert.Bridge

open Idealize.ShloMosaic Idealize.ShloMosaic.TcCoe Idealize.SL.Sem Idealize.ShloMosaic.ValueIdx Finset
open Cert.KernelIdeal (nD τ sig main_arg0 main_arg1 main_arg2 main_arg3)

/-- Indices in range: the kernel's host code and the reference compute the same squared lengths. -/
theorem qHost_eq_ref (x : FVec Ideal Cert.KernelIdeal.S100000x3 .f32) (idx : IVec Cert.KernelIdeal.S6400000x2 32)
    (hidx : ∀ j, (-100000 : Int) ≤ (idx j).toInt ∧ (idx j).toInt < 100000) :
    Cert.KernelIdeal.Glue.qHost x idx = Cert.ReferenceIdeal.Read.val_main_v20 (F := Ideal) x idx := by
  have h0 : ∀ e, (-100000 : Int) ≤ (Cert.KernelIdeal.Glue.col0 idx e).toInt ∧ (Cert.KernelIdeal.Glue.col0 idx e).toInt < 100000 := by
    intro e
    unfold Cert.KernelIdeal.Glue.col0 shapeCast extractStridedSlice
    exact hidx _
  have h1 : ∀ e, (-100000 : Int) ≤ (Cert.KernelIdeal.Glue.col1 idx e).toInt ∧ (Cert.KernelIdeal.Glue.col1 idx e).toInt < 100000 := by
    intro e
    unfold Cert.KernelIdeal.Glue.col1 shapeCast extractStridedSlice
    exact hidx _
  unfold Cert.KernelIdeal.Glue.qHost
  rw [Cert.KernelIdeal.Glue.takeFill_eq_rowsOf x (Cert.KernelIdeal.Glue.col0 idx) h0,
    Cert.KernelIdeal.Glue.takeFill_eq_rowsOf x (Cert.KernelIdeal.Glue.col1 idx) h1]
  rfl

variable (m : (ℓ : Loc nD τ sig) → Buf (Elt Ideal) ℓ)

/-- A sum over the edge indices is a sum over the flat positions. -/
theorem sum_edges (c : Dev nD) :
    (∑ j : Cert.KernelIdeal.S6400000.Idx, Cert.Springs.edgeTerm (Cert.KernelIdeal.Totals.qArr m c j)
        (Cert.KernelIdeal.Totals.lArr m c j) (Cert.KernelIdeal.Totals.kArr m c j))
      = ∑ e ∈ range 6400000, Cert.KernelIdeal.Totals.edgeN m c e := by
  rw [Finset.sum_range]
  refine (Equiv.sum_comp (idxEquiv1 (n := 6400000)).symm _).symm.trans ?_
  refine Finset.sum_congr rfl fun e _ => ?_
  unfold Cert.KernelIdeal.Totals.edgeN
  rw [dif_pos e.isLt]
  rfl

/-- Zero plus the reference's sum of edge terms is the two cores' totals added. -/
theorem sum_eq (c : Dev nD)
    (hidx : ∀ j, (-100000 : Int) ≤ ((m ((c : Thread nD τ).loc main_arg3) : IVec Cert.KernelIdeal.S6400000x2 32) j).toInt
      ∧ ((m ((c : Thread nD τ).loc main_arg3) : IVec Cert.KernelIdeal.S6400000x2 32) j).toInt < 100000) :
    Ideal.ofBits .f32 0x00000000#32
        + ∑ j : Cert.ReferenceIdeal.S6400000.Idx, Cert.Springs.edgeTerm
            (Cert.ReferenceIdeal.Read.val_main_v20 (F := Ideal) (m ((c : Thread nD τ).loc main_arg0)) (m ((c : Thread nD τ).loc main_arg3)) j)
            ((m ((c : Thread nD τ).loc main_arg1) : FVec Ideal Cert.KernelIdeal.S6400000 .f32) j)
            ((m ((c : Thread nD τ).loc main_arg2) : FVec Ideal Cert.KernelIdeal.S6400000 .f32) j)
      = Cert.KernelIdeal.Totals.coreTotal m c 0 + Cert.KernelIdeal.Totals.coreTotal m c 1 := by
  rw [Ideal.ofBits_zero_f32, zero_add, ← qHost_eq_ref _ _ hidx]
  refine (sum_edges m c).trans ?_
  rw [Cert.Springs.sum_edges_eq_tiles, Cert.Springs.sum_tiles_two_cores]
  unfold Cert.KernelIdeal.Totals.coreTotal
  simp only [Nat.mul_zero, Nat.mul_one]

end Cert.Bridge

end
-- ==== Proof.PreRange.lean ====
import proofs.«413945_j7378753815243_2_alg».proof.Proof.Gen.Pre_finite_inputs
import proofs.«413945_j7378753815243_2_alg».proof.Proof.Words
import Idealize.ShloMosaic.Lib.ReduceAll
import Idealize.ShloMosaic.Lib.ValueIdx

/-!
# What the precondition says of the indices

The precondition is a conjunction of five `jnp.all`s; the last two say that every entry of the index pairs is
`≥ −100000` and `< 100000`, read signed. A conjunction that is one has every conjunct one, and an `all` that is one
has every element one.
-/

namespace Cert.Pre_finite_inputs.Decode

open Cert.Pre_finite_inputs Idealize.ShloMosaic

instance : Subsingleton S_.Idx := ⟨fun _ _ => funext fun d => d.elim0⟩

/-- Under the precondition every vertex index lies in `[−100000, 100000)`. -/
theorem index_range {F : FTy → Type} [FloatOps F] (x : FVec F S100000x3 .f32) (l0 k : FVec F S6400000 .f32)
    (idx : IVec S6400000x2 32) (h : fn (F := F) x l0 k idx = fun _ => 1#1) (j : S6400000x2.Idx) :
    (-100000 : Int) ≤ (idx j).toInt ∧ (idx j).toInt < 100000 := by
  have h0 := congrFun h ValueIdx.ix0
  dsimp only [fn, fn_part1] at h0
  obtain ⟨h1, hlt⟩ := IntOp.andi_eq_one.mp h0
  obtain ⟨_, hge⟩ := IntOp.andi_eq_one.mp h1
  have e1 := Host.reduce_andi_all _ _ _ _ _ hge j
  have e2 := Host.reduce_andi_all _ _ _ _ _ hlt j
  exact Cert.Springs.range_of_tests (idx j) e1 e2

end Cert.Pre_finite_inputs.Decode
-- ==== Proof.lean ====
/- Spring energy of a mass–spring mesh: `½ · Σₑ k[e] · (√(|x[i₀[e]] − x[i₁[e]]|² + ε) − l0[e])²` over 6 400 000 edges.

   The reference computes it in one pass of array operations. The kernel's host code computes the squared edge
   lengths the same way but through jnp.take, whose default mode replaces a row whose index is out of range by a fill
   value; a pallas_call then streams the lengths, rest lengths and stiffnesses as 50000 × 128 arrays over a 2 × 5 grid,
   each core accumulating its five tiles' totals in a one-element scratch cell and writing the total into its 8 × 128
   output block at its last step; @main adds the two cores' totals and halves the sum.

   Under the precondition — every float finite and every vertex index in `[−100000, 100000)`, the range in which
   `x[i]` indexes in range — the fill never shows (Words, HostGlue), the scratch cell holds the running sum of tile
   totals (Pieces, Tile, Totals), the result array holds each core's total (OutArray), the kernel returns
   `½ · (total₀ + total₁)` (Result), the reference `½ · (0 + Σₑ term)` (RefValue), and the one sum is the ten tiles,
   five and five (SumRegroup, Bridge): sums of extended reals regroup freely, so finiteness is never used.
   The three frames are the generated ones (the reference's is its generated run with the result dropped), and the
   ideal pass rewrote nothing. -/
import proofs.«413945_j7378753815243_2_alg».proof.Defs
import proofs.«413945_j7378753815243_2_alg».proof.Proof.Gen.Kernel
import proofs.«413945_j7378753815243_2_alg».proof.Proof.Gen.Kernel.Skeleton
import proofs.«413945_j7378753815243_2_alg».proof.Proof.Gen.Kernel.Launch
import proofs.«413945_j7378753815243_2_alg».proof.Proof.Gen.Kernel.Points
import proofs.«413945_j7378753815243_2_alg».proof.Proof.Gen.Kernel.Frame
import proofs.«413945_j7378753815243_2_alg».proof.Proof.Gen.KernelIdeal
import proofs.«413945_j7378753815243_2_alg».proof.Proof.Gen.KernelIdeal.Skeleton
import proofs.«413945_j7378753815243_2_alg».proof.Proof.Gen.KernelIdeal.Launch
import proofs.«413945_j7378753815243_2_alg».proof.Proof.Gen.KernelIdeal.Points
import proofs.«413945_j7378753815243_2_alg».proof.Proof.Gen.KernelIdeal.Frame
import proofs.«413945_j7378753815243_2_alg».proof.Proof.Gen.ReferenceIdeal
import proofs.«413945_j7378753815243_2_alg».proof.Proof.Gen.Pre_finite_inputs
import Idealize.ShloMosaic.Adequacy
import Idealize.ShloMosaic.Init
import proofs.«413945_j7378753815243_2_alg».proof.Proof.Gen.ReferenceIdeal.Run
import proofs.«413945_j7378753815243_2_alg».proof.Proof.Gen.ReferenceIdeal.Read
import proofs.«413945_j7378753815243_2_alg».proof.Proof.Bridge
import proofs.«413945_j7378753815243_2_alg».proof.Proof.PreRange

noncomputable section

namespace Cert.Proof

open Idealize.ShloMosaic Idealize.SL.Sem

/-- Both idealized programs run, and from memories that agree on the arguments they return the same extended real. -/
theorem algebraic : Cert.algebraic_KernelIdeal_ReferenceIdeal := by
  intro m ρ m' ρ' hpre hagree
  refine ⟨fun c => fun _ => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2]
  funext i
  rw [Cert.ReferenceIdeal.RefValue.result_apply]
  unfold Cert.KernelIdeal.Result.value
  refine congrArg (fun z : EReal => Ideal.ofBits .f32 0x3F000000#32 * z) ?_
  exact Cert.Bridge.sum_eq m c fun j => Cert.Pre_finite_inputs.Decode.index_range _ _ _ _ (hpre c) j

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
